-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x2048x2048 .f32) (main_arg1 : FVec F S8192x2048 .f32) (main_arg2 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x2048x2048 : Shape := ⟨3, ![4, 2048, 2048]⟩
abbrev S8192x2048 : Shape := ⟨2, ![8192, 2048]⟩
abbrev S8192 : Shape := ⟨1, ![8192]⟩
abbrev S1x8192 : Shape := ⟨2, ![1, 8192]⟩
abbrev S_ : Shape := ⟨0, ![]⟩
abbrev S1x1 : Shape := ⟨2, ![1, 1]⟩
abbrev S8192x8192 : Shape := ⟨2, ![8192, 8192]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩
abbrev S4x2048x8192 : Shape := ⟨3, ![4, 2048, 8192]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S1x8192, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S8192x8192, .f32⟩
  | .hbm, ⟨14, _⟩ => ⟨S4x2048x8192, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S1x256, .f32⟩
  | .local _ .vmem, ⟨5, _⟩ => ⟨S1x256, .f32⟩
  | .local _ .vmem, ⟨6, _⟩ => ⟨S1x1, .f32⟩
  | .local _ .vmem, ⟨7, _⟩ => ⟨S1024x256, .f32⟩
  | .local _ .vmem, ⟨8, _⟩ => ⟨S1024x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x2048_S8192x2048 : S4x2048x2048.ShapeCasts S8192x2048
  shapeCasts_S8192_S1x8192 : S8192.ShapeCasts S1x8192
  reducesTo_S8192x2048_S_d0_1 : S8192x2048.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x8192_S4x2048x8192 : S8192x8192.ShapeCasts S4x2048x8192
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x8192.size a
  hwx0_4 : ∀ i : grid0.Coords, EltTy.bits .f32 = 32 ∨ (Rect.block (s := S8192x8192) S1024x256.size (cc0_transform_4 i) (hinb0_4 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S_ : Shape := ⟨0, ![]⟩
abbrev S4x2048x8192 : Shape := ⟨3, ![4, 2048, 8192]⟩
abbrev S1x1x8192 : Shape := ⟨3, ![1, 1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S4x2048x8192, .f32⟩
  | .hbm, ⟨24, _⟩ => ⟨S1x1x8192, .f32⟩
  | .hbm, ⟨25, _⟩ => ⟨S4x2048x8192, .f32⟩
  | .hbm, ⟨26, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.Spec.lean ====
/-
  The function both programs compute, stated once over the extended reals.

  A weight matrix `w` (8192 × 2048) is quantised to three levels: every entry is divided by one
  scale `s`, rounded to the nearest integer (ties to even) and clamped to `[-1, 1]` (`tern`).
  The result is the affine map that sends a row `r` of `x` to `r · tern(w)ᵀ + b`, applied to each
  of the 4 × 2048 rows of `x` (`linear`).  The reference feeds the product with
  `w + (tern(w) - w)`; for a finite `w` that is `tern(w)` itself, because the quantised entry
  lies in `[-1, 1]` and so is a real number (`ste`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The upper clamp: the f32 word of `1`. -/
theorem one_word : Ideal.ofBits .f32 0x3F800000#32 = ((1 : ℝ) : EReal) := by
  simp [Ideal.ofBits, Ideal.ieee, -EReal.coe_mul]; norm_num

/-- The lower clamp: the f32 word of `-1`. -/
theorem neg_one_word : Ideal.ofBits .f32 0xBF800000#32 = ((-1 : ℝ) : EReal) := by
  simp [Ideal.ofBits, Ideal.ieee, -EReal.coe_mul]; norm_num

/-- One weight `w` at scale `s`, quantised: `clamp (roundeven (w / s)) (-1) 1`. -/
def tern (s w : EReal) : EReal :=
  min (Ideal.ofBits .f32 0x3F800000#32)
    (max (Ideal.ofBits .f32 0xBF800000#32) (Ideal.liftRound Ideal.roundHalfEven (Ideal.div w s)))

theorem tern_le_one (s w : EReal) : tern s w ≤ ((1 : ℝ) : EReal) := by
  unfold tern; rw [one_word]; exact min_le_left _ _

theorem neg_one_le_tern (s w : EReal) : ((-1 : ℝ) : EReal) ≤ tern s w := by
  unfold tern; rw [one_word, neg_one_word]
  exact le_min (EReal.coe_le_coe_iff.mpr (by norm_num)) (le_max_left _ _)

/-- A quantised weight is a real number: it lies between `-1` and `1`. -/
theorem tern_real (s w : EReal) : ∃ q : ℝ, tern s w = (q : EReal) := by
  have h1 : tern s w ≠ ⊤ := fun h => by
    have := tern_le_one s w; rw [h] at this; exact absurd (top_le_iff.mp this) (EReal.coe_ne_top 1)
  have h2 : tern s w ≠ ⊥ := fun h => by
    have := neg_one_le_tern s w; rw [h] at this; exact absurd (le_bot_iff.mp this) (EReal.coe_ne_bot (-1))
  exact ⟨(tern s w).toReal, (EReal.coe_toReal h1 h2).symm⟩

/-- Adding back the difference to a FINITE weight gives the quantised weight: in the reals
    `w + (q - w) = q`. -/
theorem ste (s : EReal) (w : ℝ) : (w : EReal) + (tern s w - (w : EReal)) = tern s w := by
  obtain ⟨q, hq⟩ := tern_real s w
  rw [hq, ← EReal.coe_sub, ← EReal.coe_add]
  exact congrArg _ (by ring)

/-- The whole result: row `(i₀, i₁)` of `x` against row `i₂` of the quantised weights, plus the bias. -/
def linear (s : EReal) (x : (⟨3, ![4, 2048, 2048]⟩ : Shape).Idx → EReal)
    (w : (⟨2, ![8192, 2048]⟩ : Shape).Idx → EReal) (b : (⟨1, ![8192]⟩ : Shape).Idx → EReal) :
    (⟨3, ![4, 2048, 8192]⟩ : Shape).Idx → EReal :=
  fun i => (∑ k : Fin 2048, x (ix3 (i 0) (i 1) k) * tern s (w (ix2 (i 2) k))) + b (ix1 (i 2))

end Cert.Spec

end
-- ==== Proof.Reference.lean ====
/-
  The reference, read at an index.

  Its last stage adds the bias row to a contraction of `x` with the matrix
  `w + (q - w)`, where `q` is `w` divided by the scale, rounded and clamped.  For a finite `w`
  that matrix is `q` (`Cert.Spec.ste`), so the result is `Cert.Spec.linear` at the reference's own
  scale, `10⁻⁵ + (Σ |w|) / 2²⁴` as the program spells it (`scale`).
-/
import proofs.«147364_j27917287424034_1_alg».proof.Proof.Gen.ReferenceIdeal.Run
import proofs.«147364_j27917287424034_1_alg».proof.Proof.Gen.ReferenceIdeal.Read
import proofs.«147364_j27917287424034_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The scale the reference divides the weights by: the program's scalar stage, at its one index. -/
def scale (x1 : (⟨S8192x2048, .f32⟩ : BufTy).Contents (Elt Ideal)) : EReal :=
  val_main_v3 (F := Ideal) x1 ix0

/-- The matrix the reference contracts with, at one entry: for a finite weight it is the quantised weight. -/
theorem weight_eq (x1 : (⟨S8192x2048, .f32⟩ : BufTy).Contents (Elt Ideal)) (j : S8192x2048.Idx)
    (r : ℝ) (hr : x1 j = (r : EReal)) :
    val_main_v9 (F := Ideal) x1 j = Cert.Spec.tern (scale x1) (x1 j) := by
  rw [val_main_v9_apply, val_main_v8_apply, val_main_v7_apply, val_main_call1_v4_apply, val_main_call1_v3_apply,
    val_main_cst_3_apply, val_main_call1_v2_apply, val_main_call1_v1_apply, val_main_call1_v0_apply,
    val_main_cst_2_apply, val_main_v6_apply, val_main_v5_apply, val_main_v4_apply]
  show x1 j + (Cert.Spec.tern (scale x1) (x1 j) - x1 j) = _
  rw [hr]
  exact Cert.Spec.ste _ r

/-- The reference's result is the specification at the reference's scale, when every weight is finite. -/
theorem result_eq (x0 : (⟨S4x2048x2048, .f32⟩ : BufTy).Contents (Elt Ideal))
    (x1 : (⟨S8192x2048, .f32⟩ : BufTy).Contents (Elt Ideal)) (x2 : (⟨S8192, .f32⟩ : BufTy).Contents (Elt Ideal))
    (hfin : ∀ j, ∃ r : ℝ, x1 j = (r : EReal)) :
    val_main_v13 (F := Ideal) x0 x1 x2 = Cert.Spec.linear (scale x1) x0 x1 x2 := by
  funext i
  obtain ⟨a, b, o, rfl⟩ : ∃ (a : Fin 4) (b : Fin 2048) (o : Fin 8192), i = ix3 a b o := ⟨i 0, i 1, i 2, eq_ix3 i⟩
  rw [val_main_v13_apply, val_main_v10_apply, val_main_v12_apply, val_main_v11_apply]
  unfold Cert.Spec.linear
  show (∑ k : Fin 2048, x0 (lidx_main_v10 (ix3 a b o) k) * val_main_v9 (F := Ideal) x1 (ridx_main_v10 (ix3 a b o) k))
      + x2 (idx_main_v11 (idx_main_v12 (ix3 a b o)))
    = (∑ k : Fin 2048, x0 (ix3 a b k) * Cert.Spec.tern (scale x1) (x1 (ix2 o k))) + x2 (ix1 o)
  have eb : idx_main_v11 (idx_main_v12 (ix3 a b o)) = ix1 o :=
    funext fun d => Fin.ext (by match d with | ⟨0, _⟩ => rfl)
  rw [eb]
  refine congrArg (· + x2 (ix1 o)) (Finset.sum_congr rfl fun k _ => ?_)
  have el : lidx_main_v10 (ix3 a b o) k = ix3 a b k :=
    funext fun d => Fin.ext (by match d with | ⟨0, _⟩ => rfl | ⟨1, _⟩ => rfl | ⟨2, _⟩ => rfl)
  have er : ridx_main_v10 (ix3 a b o) k = ix2 o k :=
    funext fun d => Fin.ext (by match d with | ⟨0, _⟩ => rfl | ⟨1, _⟩ => rfl)
  obtain ⟨r, hr⟩ := hfin (ix2 o k)
  rw [el, er]
  exact congrArg (x0 (ix3 a b k) * ·) (weight_eq x1 (ix2 o k) r hr)

end Cert.ReferenceIdeal.RefValue

end
-- ==== Proof.Payload.lean ====
/-
  What the kernel body stores at one grid point, read at an index.

  The body divides its 256 × 2048 block of weights by the scale, rounds and clamps it, contracts the
  1024 × 2048 block of `x` with it over the shared axis of length 2048, and adds the bias row.
  At the exact values a change of float format is the identity and the matrix unit's product into
  a zero accumulator is the plain sum, so entry `(p, q)` of the stored block is
  `Σₖ x(p, k) · tern(s, w(q, k)) + b(0, q)`.
-/
import proofs.«147364_j27917287424034_1_alg».proof.Proof.Gen.KernelIdeal.Skeleton
import proofs.«147364_j27917287424034_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx
open scoped BigOperators

/-! ## The contraction's operand indices, coordinate by coordinate -/

theorem lhs_axis0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_axis1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_axis0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_axis1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- The matrix unit's product into a zero accumulator, at entry `(p, q)`: row `p` of the left block against
    row `q` of the right block. -/
theorem product_apply {φ₁ φ₂ : FTy} (A : FVec Ideal S1024x2048 φ₁) (B : FVec Ideal S256x2048 φ₂) (p : Fin 1024) (q : Fin 256) :
    matmul dot_S1024x2048_S256x2048_S1024x256_1_1_0_0_n_n none A B (constant S1024x256 .f32 0x00000000#32) (ix2 p q)
      = ∑ k : Fin 2048, A (ix2 p k) * B (ix2 q k) := by
  simp only [matmul]
  rw [Ideal.matmul_constant_zero_apply, ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p q) ((ValueIdx.contrEquiv1 dot_S1024x2048_S256x2048_S1024x256_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S256x2048_S1024x256_1_1_0_0_n_n.rhsIdx (ix2 p q) ((ValueIdx.contrEquiv1 dot_S1024x2048_S256x2048_S1024x256_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-- The stored block at entry `(p, q)`. -/
theorem stored_apply (sc : Vec Ideal S1x1 .f32) (wb : Vec Ideal S256x2048 .f32) (xb : Vec Ideal S1024x2048 .f32)
    (bb : Vec Ideal S1x256 .f32) (p : Fin 1024) (q : Fin 256) :
    k0_pay1 (F := Ideal) sc wb xb bb (ix2 p q)
      = (∑ k : Fin 2048, xb (ix2 p k) * Cert.Spec.tern (sc (ix2 (0 : Fin 1) (0 : Fin 1))) (wb (ix2 q k))) + bb (ix2 (0 : Fin 1) q) := by
  unfold k0_pay1
  rw [addf_apply, product_apply, broadcastTo_1b_ab_apply, shapeCast_self, shapeCast_self]
  have hs : extractAt ![0, 0] sc inpos_S1x1_p0_0 = sc (ix2 (0 : Fin 1) (0 : Fin 1)) := by
    unfold extractAt
    exact congrArg sc (funext fun a => Fin.ext (by match a with | ⟨0, _⟩ => rfl | ⟨1, _⟩ => rfl))
  rw [hs]
  refine congrArg (· + bb (ix2 (0 : Fin 1) q)) (Finset.sum_congr rfl fun k _ => ?_)
  rfl

end Cert.KernelIdeal.Block

end
-- ==== Proof.Region.lean ====
/-
  The kernel's output array after the run, as one function of the argument arrays.

  The grid has 8 × 32 points.  At point `(g₀, g₁)` the body sees rows `1024·g₀ …` of the flattened
  `x` (row `r` of the flattening is row `(r / 2048, r % 2048)` of `x`), rows `256·g₁ …` of the
  weights, columns `256·g₁ …` of the bias row and the one cell holding the scale, and writes block
  `(g₀, g₁)` of the 8192 × 8192 output.  Every stored entry is therefore the same function of its
  position in the whole output (`flat`), the blocks tile the output, and so the output ends at
  `flat`.  The host line after the region reshapes it to 4 × 2048 × 8192, which is
  `Cert.Spec.linear` at the kernel's scale.
-/
import proofs.«147364_j27917287424034_1_alg».proof.Proof.Gen.KernelIdeal.Frame
import proofs.«147364_j27917287424034_1_alg».proof.Proof.Payload
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ## The argument arrays, and the scale the host lines before the region compute -/

abbrev xs (c : Dev nD) : S4x2048x2048.Idx → EReal := m ((c : Thread nD τ).loc main_arg0)
abbrev ws (c : Dev nD) : S8192x2048.Idx → EReal := m ((c : Thread nD τ).loc main_arg1)
abbrev bs (c : Dev nD) : S8192.Idx → EReal := m ((c : Thread nD τ).loc main_arg2)

/-- The scale as a rank-0 array: `10⁻⁵ + (0 + Σ |w|) / 2²⁴`, spelt as the program spells it. -/
def scaleArr (c : Dev nD) : FVec Ideal S_ .f32 :=
  addf (constant (F := Ideal) S_ .f32 0x3727C5AC#32)
    (Host.divf (Host.reduceAdd (Host.absf (ws m c)) (constant (F := Ideal) S_ .f32 0x00000000#32) reducesTo_S8192x2048_S_d0_1 h_S_)
      (constant (F := Ideal) S_ .f32 0x4B800000#32))

/-- Its one entry. -/
def scale (c : Dev nD) : EReal := scaleArr m c ix0

/-- Row `r` of the flattened `x` is row `(r / 2048, r % 2048)` of `x`. -/
theorem x_entry (c : Dev nD) (r : Fin 8192) (k : Fin 2048) (a : Fin 4) (b : Fin 2048) (hr : r.val = a.val * 2048 + b.val) :
    (V m c main_v0 : S8192x2048.Idx → EReal) (ix2 r k) = xs m c (ix3 a b k) := by
  have e : (V m c main_v0 : S8192x2048.Idx → EReal) = shapeCast S8192x2048 (xs m c) shapeCasts_S4x2048x2048_S8192x2048 := by
    show StableHlo.after hostOps0 (fun b => m (c, b)) (Proc.devRef .tc main_v0) = _
    after_results
    rfl
  rw [e]
  refine shapeCast_apply _ _ _ _ ?_
  rw [Shape.rowMajor_val_three, Shape.rowMajor_val_two]
  show (a.val * 2048 + b.val) * 2048 + k.val = r.val * 2048 + k.val
  rw [hr]

/-- The bias as a one-row matrix. -/
theorem b_entry (c : Dev nD) (o : Fin 8192) :
    (V m c main_v1 : S1x8192.Idx → EReal) (ix2 (0 : Fin 1) o) = bs m c (ix1 o) := by
  have e : (V m c main_v1 : S1x8192.Idx → EReal) = shapeCast S1x8192 (bs m c) shapeCasts_S8192_S1x8192 := by
    show StableHlo.after hostOps0 (fun b => m (c, b)) (Proc.devRef .tc main_v1) = _
    after_results
    rfl
  rw [e]
  exact shapeCast_a_1a_apply _ _ _ _

/-- The scale as a one-cell matrix. -/
theorem s_entry (c : Dev nD) :
    (V m c main_v6 : S1x1.Idx → EReal) (ix2 (0 : Fin 1) (0 : Fin 1)) = scale m c := by
  have e : (V m c main_v6 : S1x1.Idx → EReal) = shapeCast S1x1 (scaleArr m c) shapeCasts_S_S1x1 := by
    show StableHlo.after hostOps0 (fun b => m (c, b)) (Proc.devRef .tc main_v6) = _
    after_results
    rfl
  rw [e]
  refine shapeCast_apply _ _ _ ix0 ?_
  have h1 : S_.numel = 1 := by decide
  have h2 := (S_.rowMajor ix0).isLt
  rw [Shape.rowMajor_val_two]
  show (S_.rowMajor ix0).val = 0 * 1 + 0
  omega

/-! ## The output array as one function of its position -/

/-- Entry ¶(r, o)¶ of the 8192 × 8192 output: row ¶(r / 2048, r % 2048)¶ of ¶x¶ against row ¶o¶ of the
    quantised weights, plus ¶b o¶. -/
def flat (c : Dev nD) : S8192x8192.Idx → EReal := fun j =>
  Cert.Spec.linear (scale m c) (xs m c) (ws m c) (bs m c)
    (ix3 (⟨(j 0).val / 2048, by have : (j 0).val < 8192 := (j 0).isLt; omega⟩ : Fin 4)
      (⟨(j 0).val % 2048, Nat.mod_lt _ (by decide)⟩ : Fin 2048) (⟨(j 1).val, (j 1).isLt⟩ : Fin 8192))

theorem hz : (![0, 0] : Fin 2 → Nat) = fun _ => 0 := funext fun a => by fin_cases a <;> rfl

/-- The printed index maps over the grid: the ¶x¶ window follows the output's block row, the weight and
    bias windows its block column, the scale window stays; the output's block indices stay in range. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0
    ∧ win0_4.index t (0 : Fin 2) ≤ 7 ∧ win0_4.index t (1 : Fin 2) ≤ 31 :=
  (by decide +kernel : ∀ t : Fin grid0.N, _)

/-- Every block of the output is some point's. -/
theorem idx_onto : ∀ (q0 : Fin 8) (q1 : Fin 32), ∃ t : Fin cfg0.N, win0_4.index t = ![q0.val, q1.val] :=
  (by decide +kernel : ∀ (q0 : Fin 8) (q1 : Fin 32), ∃ t : Fin grid0.N, win0_4.index t = ![q0.val, q1.val])

/-- The ¶x¶ block at a point, read at ¶(p, k)¶: row ¶1024·g₀ + p¶ of the flattened ¶x¶. -/
theorem xblk_apply (c : Dev nD) (t : Fin cfg0.N) (p : Fin 1024) (k : Fin 2048) (r : Fin 8192)
    (hr : r.val = win0_4.index t (0 : Fin 2) * 1024 + p.val) :
    (iblk m c 0 t : Vec Ideal S1024x2048 .f32) (ix2 p k) = (V m c main_v0 : S8192x2048.Idx → EReal) (ix2 r k) := by
  obtain ⟨e00, e01, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- The weight block at a point, read at ¶(q, k)¶: row ¶256·g₁ + q¶ of the weights. -/
theorem wblk_apply (c : Dev nD) (t : Fin cfg0.N) (q : Fin 256) (k : Fin 2048) (o : Fin 8192)
    (ho : o.val = win0_4.index t (1 : Fin 2) * 256 + q.val) :
    (iblk m c 1 t : Vec Ideal S256x2048 .f32) (ix2 q k) = ws m c (ix2 o k) := by
  obtain ⟨-, -, e10, e11, -⟩ := idx_facts t
  show V m c main_arg1 (((cfg0.win 1).blk t).view.emb (ix2 q k)) = ws m c (ix2 o k)
  rw [V_main_arg1]
  refine congrArg (ws m c) (funext fun a => Fin.ext ?_)
  match a with
  | ⟨0, _⟩ => show win0_1.index t (0 : Fin 2) * 256 + 1 * q.val = o.val; omega
  | ⟨1, _⟩ => show win0_1.index t (1 : Fin 2) * 2048 + 1 * k.val = k.val; omega

/-- The bias block at a point, read at ¶(0, q)¶: column ¶256·g₁ + q¶ of the bias row. -/
theorem bblk_apply (c : Dev nD) (t : Fin cfg0.N) (q : Fin 256) (o : Fin 8192)
    (ho : o.val = win0_4.index t (1 : Fin 2) * 256 + q.val) :
    (iblk m c 2 t : Vec Ideal S1x256 .f32) (ix2 (0 : Fin 1) q) = (V m c main_v1 : S1x8192.Idx → EReal) (ix2 (0 : Fin 1) o) := by
  obtain ⟨-, -, -, -, e20, e21, -⟩ := idx_facts t
  show V m c main_v1 (((cfg0.win 2).blk t).view.emb (ix2 (0 : Fin 1) q)) = V m c main_v1 (ix2 (0 : Fin 1) o)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 256 + 1 * q.val = o.val; omega

/-- The scale block at a point is the one cell. -/
theorem sblk_apply (c : Dev nD) (t : Fin cfg0.N) :
    (iblk m c 3 t : Vec Ideal S1x1 .f32) (ix2 (0 : Fin 1) (0 : Fin 1)) = (V m c main_v6 : S1x1.Idx → EReal) (ix2 (0 : Fin 1) (0 : Fin 1)) := by
  obtain ⟨-, -, -, -, -, -, e30, e31, -⟩ := idx_facts t
  show V m c main_v6 (((cfg0.win 3).blk t).view.emb (ix2 (0 : Fin 1) (0 : Fin 1))) = V m c main_v6 (ix2 (0 : Fin 1) (0 : Fin 1))
  refine congrArg (V m c main_v6) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

end Cert.KernelIdeal.Region

end
-- ==== Proof.Output.lean ====
/-
  From the stored blocks to the program's result.

  Entry `(p, q)` of the block stored at a grid point is entry `(1024·g₀ + p, 256·g₁ + q)` of `flat`
  (`block_entry`): the `x` block's row `p` is row `1024·g₀ + p` of the flattened `x`, the weight block's
  row `q` is row `256·g₁ + q` of the weights, the bias block's column `q` is column `256·g₁ + q` of the
  bias.  The 256 blocks tile the 8192 × 8192 output (the point covering `(r, o)` is
  `(r / 1024, o / 256)`), so the output ends at `flat`; reshaped to 4 × 2048 × 8192 it is
  `Cert.Spec.linear`.
-/
import proofs.«147364_j27917287424034_1_alg».proof.Proof.Region

set_option maxRecDepth 16384

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-- `flat` at explicit coordinates. -/
theorem flat_apply (c : Dev nD) (R O : Fin 8192) (a : Fin 4) (b : Fin 2048) (hR : R.val = a.val * 2048 + b.val) :
    flat m c (ix2 R O)
      = (∑ k : Fin 2048, xs m c (ix3 a b k) * Cert.Spec.tern (scale m c) (ws m c (ix2 O k))) + bs m c (ix1 O) := by
  have ha : (⟨R.val / 2048, by have := R.isLt; omega⟩ : Fin 4) = a := Fin.ext (by show R.val / 2048 = a.val; have := b.isLt; omega)
  have hb : (⟨R.val % 2048, Nat.mod_lt _ (by decide)⟩ : Fin 2048) = b := Fin.ext (by show R.val % 2048 = b.val; have := b.isLt; omega)
  show (∑ k : Fin 2048, xs m c (ix3 (⟨R.val / 2048, _⟩ : Fin 4) (⟨R.val % 2048, _⟩ : Fin 2048) k) * Cert.Spec.tern (scale m c) (ws m c (ix2 (⟨O.val, _⟩ : Fin 8192) k)))
      + bs m c (ix1 (⟨O.val, _⟩ : Fin 8192)) = _
  rw [ha, hb]

/-- Entry `(p, q)` of the block a point stores is entry `(R, O)` of `flat`, `R = 1024·g₀ + p`, `O = 256·g₁ + q`. -/
theorem block_entry (c : Dev nD) (t : Fin cfg0.N) (p : Fin 1024) (q : Fin 256) (R O : Fin 8192)
    (hR : R.val = win0_4.index t (0 : Fin 2) * 1024 + p.val) (hO : O.val = win0_4.index t (1 : Fin 2) * 256 + q.val) :
    k0_pay1 (F := Ideal) (iblk m c 3 t) (iblk m c 1 t) (iblk m c 0 t) (iblk m c 2 t) (ix2 p q) = flat m c (ix2 R O) := by
  refine (Cert.KernelIdeal.Block.stored_apply (iblk m c 3 t) (iblk m c 1 t) (iblk m c 0 t) (iblk m c 2 t) p q).trans ?_
  have hRl := R.isLt
  refine Eq.trans ?_ (flat_apply m c R O ⟨R.val / 2048, by omega⟩ ⟨R.val % 2048, Nat.mod_lt _ (by decide)⟩ (by show R.val = R.val / 2048 * 2048 + R.val % 2048; omega)).symm
  refine congrArg₂ (· + ·) (Finset.sum_congr rfl fun k _ => ?_) ((bblk_apply m c t q O hO).trans (b_entry m c O))
  refine congrArg₂ (· * ·) ((xblk_apply m c t p k R hR).trans (x_entry m c R k _ _ (by show R.val = R.val / 2048 * 2048 + R.val % 2048; omega))) ?_
  exact congrArg₂ Cert.Spec.tern ((sblk_apply m c t).trans (s_entry m c)) (wblk_apply m c t q k O hO)

/-- WHAT A POINT WRITES BACK is its block of ¶flat¶. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  unfold out0_4
  rw [View.canon_unit_zero hz]
  simp only [View.ld_unit_zero (S := S1x1) hz, View.ld_unit_zero (S := S256x2048) hz,
    View.ld_unit_zero (S := S1024x2048) hz, View.ld_unit_zero (S := S1x256) hz]
  obtain ⟨-, -, -, -, -, -, -, -, b0, b1⟩ := idx_facts t
  funext j
  have hj0 : (j 0).val < 1024 := (j 0).isLt
  have hj1 : (j 1).val < 256 := (j 1).isLt
  have hy : (cfg0.win 4).xinj (grid0.coords t) j = ix2 (⟨(j 0).val, hj0⟩ : Fin 1024) (⟨(j 1).val, hj1⟩ : Fin 256) :=
    funext fun a => Fin.ext (by match a with | ⟨0, _⟩ => rfl | ⟨1, _⟩ => rfl)
  have he : ((cfg0.win 4).blk t).view.emb j
      = ix2 (⟨win0_4.index t (0 : Fin 2) * 1024 + (j 0).val, by omega⟩ : Fin 8192)
          (⟨win0_4.index t (1 : Fin 2) * 256 + (j 1).val, by omega⟩ : Fin 8192) :=
    funext fun a => Fin.ext (by
      match a with
      | ⟨0, _⟩ => show win0_4.index t (0 : Fin 2) * 1024 + 1 * (j 0).val = win0_4.index t (0 : Fin 2) * 1024 + (j 0).val; omega
      | ⟨1, _⟩ => show win0_4.index t (1 : Fin 2) * 256 + 1 * (j 1).val = win0_4.index t (1 : Fin 2) * 256 + (j 1).val; omega)
  show k0_pay1 (F := Ideal) (iblk m c 3 t) (iblk m c 1 t) (iblk m c 0 t) (iblk m c 2 t) ((cfg0.win 4).xinj (grid0.coords t) j)
      = flat m c (((cfg0.win 4).blk t).view.emb j)
  exact (congrArg (k0_pay1 (F := Ideal) (iblk m c 3 t) (iblk m c 1 t) (iblk m c 0 t) (iblk m c 2 t)) hy).trans
    ((block_entry m c t _ _ _ _ rfl rfl).trans (congrArg (flat m c) he.symm))

/-- An index of the output is in a point's block iff each coordinate is in the block's range on its axis. -/
theorem mem_blk (t : Fin cfg0.N) (i : S8192x8192.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v7).slice (win0_4.rect t)).set ↔ _
  rw [View.set_slice_whole, Rect.mem_set_unit]
  exact Iff.rfl

/-- The blocks tile the output: entry ¶(r, o)¶ is in the block of the point with block indices ¶(r / 1024, o / 256)¶. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- THE OUTPUT ARRAY after the run is ¶flat¶. -/
theorem final (c : Dev nD) : (dats m 0 c).arrAt 4 cfg0.N = flat m c :=
  (dats m 0 c).arrAt_eq_of_cover 4 (flat m c) (fun t _ => flushed_eq m c t) cover

/-- THE PROGRAM'S RESULT: the host line after the region reshapes the output to 4 × 2048 × 8192, which is the
    specification at the kernel's scale. -/
theorem result_eq (c : Dev nD) :
    (Pipeline.afterTail₀ cfgs (dats m) 0 (V0 m) [hostOps1] c main_v8 : S4x2048x8192.Idx → EReal)
      = Cert.Spec.linear (scale m c) (xs m c) (ws m c) (bs m c) := by
  have e : (Pipeline.afterTail₀ cfgs (dats m) 0 (V0 m) [hostOps1] c main_v8 : S4x2048x8192.Idx → EReal)
      = shapeCast S4x2048x8192 (flat m c) shapeCasts_S8192x8192_S4x2048x8192 := by
    unfold Pipeline.afterTail₀
    show StableHlo.after hostOps1 _ (Proc.devRef .tc main_v8) = _
    after_results
    rw [show Pipeline.withArrays (cfgs 0).spec c (V0 m c) (fun w => (dats m 0 c).arrAt w (cfgs 0).N) (Proc.devRef .tc main_v7) = flat m c from
      (Pipeline.withArrays_arr spec0 launch0.win.arr_inj c _ _ 4).trans (final m c)]
    rfl
  rw [e]
  funext i
  obtain ⟨a, b, o, rfl⟩ : ∃ (a : Fin 4) (b : Fin 2048) (o : Fin 8192), i = ix3 a b o := ⟨i 0, i 1, i 2, eq_ix3 i⟩
  have hR : a.val * 2048 + b.val < 8192 := by have := a.isLt; have := b.isLt; omega
  refine (shapeCast_apply _ _ _ (ix2 (⟨a.val * 2048 + b.val, hR⟩ : Fin 8192) o) ?_).trans ?_
  · rw [Shape.rowMajor_val_two, Shape.rowMajor_val_three]
    rfl
  · exact flat_apply m c _ o a b rfl

/-! ## The run, read -/

/-- Every execution of the idealized kernel program ends with its result at the specification (at the kernel's
    scale) and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = Cert.Spec.linear (scale m c) (xs m c) (ws m c) (bs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Region

end
-- ==== Proof.Finite.lean ====
/-
  What the precondition gives: every weight is a real number.

  The precondition is the conjunction of three tests, one per input, each saying that every
  entry's absolute value is below `+∞`.  On the extended reals `max x (-x) < ⊤` excludes both
  infinities, so the entry is the image of a real.
-/
import proofs.«147364_j27917287424034_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx

instance : Subsingleton S_.Idx := ⟨fun a b => funext fun d => d.elim0⟩

/-- The word the tests compare against denotes `+∞`. -/
theorem inf_word : Ideal.ofBits .f32 0x7F800000#32 = ⊤ := by
  simp [Ideal.ofBits, Ideal.ieee]

/-- An extended real whose absolute value is below `+∞` is a real. -/
theorem real_of_abs_lt (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- Under the precondition every entry of the second input (the weights) is a real. -/
theorem weights_real [Facts] (a0 : FVec Ideal S4x2048x2048 .f32) (a1 : FVec Ideal S8192x2048 .f32) (a2 : FVec Ideal S8192 .f32)
    (h : fn (F := Ideal) a0 a1 a2 = fun _ => 1#1) (j : S8192x2048.Idx) : ∃ r : ℝ, a1 j = (r : EReal) := by
  have h0 := congrFun h ix0
  dsimp only [fn] at h0
  have h1 := (IntOp.andi_eq_one.mp h0).1
  have h2 := (IntOp.andi_eq_one.mp h1).2
  have h3 := Host.reduce_andi_all _ _ _ _ ix0 h2 j
  have h4 : Ideal.cmp .olt (max (a1 j) (-(a1 j))) (Ideal.ofBits .f32 0x7F800000#32) = 1#1 := h3
  rw [inf_word] at h4
  exact real_of_abs_lt _ h4

end Cert.Pre_finite_inputs.Finite

end
-- ==== Proof.lean ====
/-
  A linear layer with three-level weights: both programs compute, for a finite weight matrix,
  `out[a, b, o] = Σₖ x[a, b, k] · q[o, k] + bias[o]` with `q = clamp (roundeven (w / s)) (-1) 1` and
  `s = 10⁻⁵ + (Σ |w|) / 2²⁴` (Proof/Spec.lean).

  The kernel computes `s` on the host, flattens `x` to 8192 rows, quantises a block of the weights
  inside the body and contracts it with a block of rows of `x`; its 8 × 32 output blocks tile the
  8192 × 8192 output, which the last host line reshapes (Proof/Payload.lean, Proof/Region.lean,
  Proof/Output.lean).  The reference contracts `x` with `w + (q - w)`, which for finite `w` is `q`
  because `q` lies in `[-1, 1]` (Proof/Reference.lean); finiteness of `w` is what the precondition
  gives (Proof/Finite.lean).  The two scales are one term of the weights.  Over the exact values a
  change of float format is the identity and both contractions are the same sum, so the two results
  agree entry by entry.  No rewrite was applied when the kernel was idealized, so nothing is owed
  for it.
-/
import proofs.«147364_j27917287424034_1_alg».proof.Defs
import proofs.«147364_j27917287424034_1_alg».proof.Proof.Gen.Kernel
import proofs.«147364_j27917287424034_1_alg».proof.Proof.Gen.Kernel.Skeleton
import proofs.«147364_j27917287424034_1_alg».proof.Proof.Gen.Kernel.Launch
import proofs.«147364_j27917287424034_1_alg».proof.Proof.Gen.Kernel.Points
import proofs.«147364_j27917287424034_1_alg».proof.Proof.Gen.Kernel.Frame
import proofs.«147364_j27917287424034_1_alg».proof.Proof.Gen.KernelIdeal
import proofs.«147364_j27917287424034_1_alg».proof.Proof.Gen.KernelIdeal.Skeleton
import proofs.«147364_j27917287424034_1_alg».proof.Proof.Gen.KernelIdeal.Launch
import proofs.«147364_j27917287424034_1_alg».proof.Proof.Gen.KernelIdeal.Points
import proofs.«147364_j27917287424034_1_alg».proof.Proof.Gen.KernelIdeal.Frame
import proofs.«147364_j27917287424034_1_alg».proof.Proof.Gen.ReferenceIdeal
import proofs.«147364_j27917287424034_1_alg».proof.Proof.Gen.ReferenceIdeal.Run
import proofs.«147364_j27917287424034_1_alg».proof.Proof.Gen.ReferenceIdeal.Read
import proofs.«147364_j27917287424034_1_alg».proof.Proof.Gen.Pre_finite_inputs
import proofs.«147364_j27917287424034_1_alg».proof.Proof.Reference
import proofs.«147364_j27917287424034_1_alg».proof.Proof.Output
import proofs.«147364_j27917287424034_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The scale the kernel's host lines compute and the scale the reference computes are one term of the weights. -/
theorem scale_eq (m : (ℓ : Loc Cert.KernelIdeal.nD Cert.KernelIdeal.τ Cert.KernelIdeal.sig) → Buf (Elt Ideal) ℓ)
    (c : Dev Cert.KernelIdeal.nD) :
    Cert.ReferenceIdeal.RefValue.scale (m ((c.tc : Thread Cert.KernelIdeal.nD Cert.KernelIdeal.τ).loc Cert.KernelIdeal.main_arg1))
      = Cert.KernelIdeal.Region.scale m c := rfl

/-- Both programs end at the specification: the kernel by its stored blocks, the reference because for finite
    weights `w + (q - w) = q`. -/
theorem algebraic : Cert.algebraic_KernelIdeal_ReferenceIdeal := by
  intro m ρ m' ρ' hpre hagree
  refine ⟨fun c => Cert.Spec.linear (Cert.KernelIdeal.Region.scale m c) (Cert.KernelIdeal.Region.xs m c)
    (Cert.KernelIdeal.Region.ws m c) (Cert.KernelIdeal.Region.bs m c), Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v13_eq]
  refine (Cert.ReferenceIdeal.RefValue.result_eq _ _ _
    (fun j => Cert.Pre_finite_inputs.Finite.weights_real _ _ _ (hpre c) j)).trans ?_
  rw [scale_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
